-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S64x64 : Shape := ⟨2, ![64, 64]⟩
abbrev S64x16 : Shape := ⟨2, ![64, 16]⟩
abbrev S16x64 : Shape := ⟨2, ![16, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg4 : FVec F S64x16 .f32) (main_arg5 : FVec F S16x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S64x64 .f32) (main_arg4 : FVec F S64x16 .f32) (main_arg5 : FVec F S16x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S64x64 : Shape := ⟨2, ![64, 64]⟩
abbrev S64x16 : Shape := ⟨2, ![64, 16]⟩
abbrev S16x64 : Shape := ⟨2, ![16, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S_ : Shape := ⟨0, ![]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 24
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S64x16, .f32⟩
  | .hbm, ⟨5, _⟩ => ⟨S16x64, .f32⟩
  | .hbm, ⟨6, _⟩ => ⟨S64x64, .f32⟩
  | .hbm, ⟨7, _⟩ => ⟨S64x1x64x1, .f32⟩
  | .hbm, ⟨8, _⟩ => ⟨S1x64x1x64, .f32⟩
  | .hbm, ⟨9, _⟩ => ⟨S64x64x64x64, .f32⟩
  | .hbm, ⟨10, _⟩ => ⟨S64x64x64x64, .f32⟩
  | .hbm, ⟨11, _⟩ => ⟨S64x64x64x64, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S64x16_S16x64_S64x64_1_0_0_1_n_n_wf : DotDims.WF S64x16 S16x64 S64x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S64x64 : Shape := ⟨2, ![64, 64]⟩
abbrev S64x16 : Shape := ⟨2, ![64, 16]⟩
abbrev S16x64 : Shape := ⟨2, ![16, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S_ : Shape := ⟨0, ![]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S64x16, .f32⟩
  | .hbm, ⟨5, _⟩ => ⟨S16x64, .f32⟩
  | .hbm, ⟨6, _⟩ => ⟨S64x64, .f32⟩
  | .hbm, ⟨7, _⟩ => ⟨S64x1x64x1, .f32⟩
  | .hbm, ⟨8, _⟩ => ⟨S1x64x1x64, .f32⟩
  | .hbm, ⟨9, _⟩ => ⟨S64x64x64x64, .f32⟩
  | .hbm, ⟨10, _⟩ => ⟨S64x64x64x64, .f32⟩
  | .hbm, ⟨11, _⟩ => ⟨S64x64x64x64, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S64x16_S16x64_S64x64_1_0_0_1_n_n_wf : DotDims.WF S64x16 S16x64 S64x64 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S64x16_S16x64_S64x64_1_0_0_1_n_n : DotDims S64x16 S16x64 S64x64 where
  lhsContracting := [1]
  rhsContracting := [0]
  lhsNonContracting := [0]
  rhsNonContracting := [1]
  lhsBatch := []
  rhsBatch := []
  wf := dot_S64x16_S16x64_S64x64_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.AccPieces.lean ====
/-
  What one run of the kernel body leaves behind, as values, in each of its three control cases. The body keeps a
  1024 x 1024 accumulator tile in scratch memory. At the first step along the contracted axis it fills the tile with
  zeros and then adds the product of the current left and right tiles; at every later step it adds the product to what
  the step before left; at the last step it also writes the accumulator plus the bias row to the output tile.
  So, writing `upd x y acc = acc + x * yᵀ` for the accumulate step and `fin b acc = acc + b` (the bias row repeated down
  the rows) for the final step:
    first step        scratch = upd x y 0
    middle steps      scratch = upd x y (previous scratch)
    last step         scratch = upd x y (previous scratch),   output = fin b (that scratch).
  These hold at any float instance; nothing here uses arithmetic.
-/
import proofs.«173981_j16716012716545_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The origin of a rank-2 tile, as the function that is zero on both axes. -/
theorem hz : (![0, 0] : Fin 2 → Nat) = fun _ => 0 := funext fun a => by fin_cases a <;> rfl

/-- First step (the zero fill, then the update read back over it): the scratch ends at the update of the zero tile. -/
theorem scratch_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i) (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz]
  simp only [View.readAt_eq_ld, h3.read_unread, h4.read_unread, h5.read_unread, h7.read_unread, View.ld_unit_zero (S := S1024x1024) hz, View.ld_unit_zero (S := S1x1024) hz, View.readCov_unit_zero (S := S1024x1024) _ hz]

/-- A middle step: the scratch ends at the update of what the step before left in it. -/
theorem scratch_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i) (x0 x1 : Vec F S1024x1024 .f32) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero hz]
  simp only [View.readAt_eq_ld, h3.read_unread, h4.read_unread, h5.read_unread, h7.read_unread, View.ld_unit_zero (S := S1024x1024) hz, View.ld_unit_zero (S := S1x1024) hz, View.readCov_unit_zero (S := S1024x1024) _ hz]

/-- The last step, scratch: the same update. -/
theorem scratch_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 x1 : Vec F S1024x1024 .f32) (x2 : Vec F S1x1024 .f32) (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread, View.ld_unit_zero (S := S1024x1024) hz, View.ld_unit_zero (S := S1x1024) hz, View.readCov_unit_zero (S := S1024x1024) _ hz]

/-- The last step, output tile: the final step applied to the updated scratch. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i) (x0 x1 : Vec F S1024x1024 .f32) (x2 : Vec F S1x1024 .f32) (xs : Vec F S1024x1024 .f32) :
    out0_C_3 c i a3 h3 a4 h4 a5 h5 a6 h6 a7 h7 hc0 hc1 x0 x1 x2 xs = k0_pay3 x2 (k0_pay2 x0 x1 xs) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread, View.ld_unit_zero (S := S1024x1024) hz, View.ld_unit_zero (S := S1x1024) hz, View.readCov_unit_zero (S := S1024x1024) _ hz]

end Cert.KernelIdeal.Acc

end
-- ==== Proof.AccPayload.lean ====
/-
  The three tile computations of the kernel body read at one element, over the extended reals.
    * the zero fill is 0 everywhere;
    * the update of an accumulator tile `acc` by a left tile `x` and a right tile `y` is, at row p and column q,
        acc(p, q) + ∑ₖ x(p, k) · y(q, k)      (k over the 1024 columns the two tiles share:
      the product contracts the SECOND axis of both tiles, so it is x times the transpose of y; the narrowing of
      both operands to a shorter float format before the product is the identity on exact values);
    * the final step adds to acc(p, q) the bias row's entry q.
-/
import proofs.«173981_j16716012716545_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Acc

open Cert.KernelIdeal Cert.KernelIdeal.Gen

/-- The zero fill at any element. -/
theorem zero_tile_apply (j : S1024x1024.Idx) : k0_pay1 (F := Ideal) j = 0 := by
  unfold k0_pay1
  rw [shapeCast_self]
  exact Ideal.ofBits_zero_f32

/-! The tile product's operand indices, axis by axis: the output's row picks the left tile's row, the output's column
    picks the right tile's ROW, and the contracted coordinate is the column of both. -/

theorem lhs_tile_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_tile_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_tile_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_tile_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The tile product into a zero accumulator, at row p and column q: ∑ₖ x(p, k) · y(q, k). -/
theorem tile_product_apply (x y : FVec Ideal S1024x1024 .bf16) (p q : Fin 1024) :
    matmul dot_S1024x1024_S1024x1024_S1024x1024_1_1_0_0_n_n none x y (constant S1024x1024 .f32 0x00000000#32) (ix2 p q)
      = ∑ k : Fin 1024, x (ix2 p k) * y (ix2 q k) := by
  show FloatOps.matmul dot_S1024x1024_S1024x1024_S1024x1024_1_1_0_0_n_n none x y (constant S1024x1024 .f32 0x00000000#32) (ix2 p q) = _
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]

/-- The accumulate step at row p and column q. -/
theorem update_apply (x y acc : Vec Ideal S1024x1024 .f32) (p q : Fin 1024) :
    k0_pay2 (F := Ideal) x y acc (ix2 p q) = acc (ix2 p q) + ∑ k : Fin 1024, x (ix2 p k) * y (ix2 q k) := by
  unfold k0_pay2
  rw [shapeCast_self, shapeCast_self, shapeCast_self]
  refine (addf_apply _ _ _).trans ?_
  exact congrArg (acc (ix2 p q) + ·) (tile_product_apply _ _ p q)

/-- The final step at row p and column q: the bias row is repeated down the rows. -/
theorem finish_apply (b : Vec Ideal S1x1024 .f32) (acc : Vec Ideal S1024x1024 .f32) (p q : Fin 1024) :
    k0_pay3 (F := Ideal) b acc (ix2 p q) = acc (ix2 p q) + b (ix2 0 q) := by
  unfold k0_pay3
  rw [shapeCast_self, shapeCast_self]
  refine (addf_apply _ _ _).trans ?_
  refine congrArg (acc (ix2 p q) + ·) ?_
  refine broadcastTo_apply b broadcasts_S1x1024_S1024x1024 (ix2 p q) (ix2 0 q) (fun a => ?_)
  match a with
  | ⟨0, _⟩ => show (0 : Nat) = if (1 : Nat) = 1 then 0 else _; rw [if_pos rfl]
  | ⟨1, _⟩ => show q.val = if (1024 : Nat) = 1 then 0 else q.val; rw [if_neg (by decide)]

end Cert.KernelIdeal.Acc

end
-- ==== Proof.LibBlockSums.lean ====
/-
  Sums over the first rows of consecutive blocks of equal height: the first (s + 1) * B rows are the first s * B rows
  followed by the B rows of block s; no blocks give the empty sum; and a sum over an initial segment of the naturals
  depends only on the segment's length.
-/
import Mathlib.Algebra.BigOperators.Fin

namespace Cert.LibBlockSums

variable {M : Type*} [AddCommMonoid M]

/-- A sum over the naturals below n depends only on the number n, not on how it is written. -/
theorem sum_cast {n n' : Nat} (h : n = n') (f : Nat → M) : ∑ r : Fin n, f r.val = ∑ r : Fin n', f r.val := by
  subst h
  rfl

/-- The naturals below a + b are those below a followed by a + r for r below b. -/
theorem sum_add (a b : Nat) (f : Nat → M) :
    ∑ r : Fin (a + b), f r.val = ∑ r : Fin a, f r.val + ∑ r : Fin b, f (a + r.val) := by
  rw [Fin.sum_univ_add]
  rfl

/-- The first s + 1 blocks of B rows are the first s blocks followed by the rows s * B + r, r below B, of block s. -/
theorem sum_blocks_succ (B s : Nat) (f : Nat → M) :
    ∑ r : Fin ((s + 1) * B), f r.val = ∑ r : Fin (s * B), f r.val + ∑ r : Fin B, f (s * B + r.val) := by
  rw [sum_cast (Nat.succ_mul s B) f, sum_add]

/-- No blocks: the empty sum. -/
theorem sum_blocks_zero (B : Nat) (f : Nat → M) : ∑ r : Fin (0 * B), f r.val = 0 := by
  rw [sum_cast (Nat.zero_mul B) f]
  rfl

/-- Twenty-five blocks of 512 rows are the 12800 rows. -/
theorem sum_blocks_25_512 (f : Nat → M) : ∑ r : Fin (25 * 512), f r.val = ∑ r : Fin 12800, f r.val :=
  sum_cast (show 25 * 512 = 12800 from rfl) f

/-- Twenty-five blocks of 2048 rows are the 51200 rows. -/
theorem sum_blocks_25_2048 (f : Nat → M) : ∑ r : Fin (25 * 2048), f r.val = ∑ r : Fin 51200, f r.val :=
  sum_cast (show 25 * 2048 = 51200 from rfl) f

end Cert.LibBlockSums
-- ==== Proof.BlockedDot.lean ====
/-
  A dot product of two rows taken 1024 columns at a time, over the extended reals.

  For matrices X (A x K) and W (B x K), `rowDot X W a b n` is the sum over the first n columns r of X(a, r) · W(b, r).
  The kernel walks its 8 x 4 x 4 grid with the contracted axis innermost: the point numbered n works on row tile
  n / 16, column tile (n / 4) % 4 and column block n % 4 of the contraction. After that point its accumulator tile
  holds, at row p and column q, the dot product over the first (n % 4 + 1) · 1024 columns: `tileSpec`.

    * at a first block (n % 4 = 0) that is 0 plus the block's own products;
    * at a later block it is what the point before held plus the block's own products;
    * at a last block (n % 4 = 3) it is the dot product over all 4096 columns.

  Only that addition of extended reals is commutative and associative is used (the partial sums are sums over an
  initial segment, extended one block at a time), so nothing here asks the entries to be finite.
-/
import proofs.«173981_j16716012716545_1_alg».proof.Proof.LibBlockSums
import Idealize.ShloMosaic.Lib.ValueIdx
import Mathlib.Data.EReal.Basic

noncomputable section

open Idealize.ShloMosaic Idealize.ShloMosaic.ValueIdx

namespace Cert.BlockedDot

/-- A matrix read at natural-number coordinates (0 outside it: never consulted there). -/
def at2 {A B : ℕ} (x : (⟨2, ![A, B]⟩ : Shape).Idx → EReal) (a b : ℕ) : EReal :=
  if h : a < A ∧ b < B then x (ix2 ⟨a, h.1⟩ ⟨b, h.2⟩) else 0

theorem at2_eq {A B : ℕ} (x : (⟨2, ![A, B]⟩ : Shape).Idx → EReal) (a : Fin A) (b : Fin B) :
    at2 x a.val b.val = x (ix2 a b) := dif_pos ⟨a.isLt, b.isLt⟩

/-- An entry at coordinates known as numbers. -/
theorem eq_at2 {A B : ℕ} (x : (⟨2, ![A, B]⟩ : Shape).Idx → EReal) (a : Fin A) (b : Fin B) (n k : ℕ)
    (hn : a.val = n) (hk : b.val = k) : x (ix2 a b) = at2 x n k := by
  subst hn hk
  exact (at2_eq x a b).symm

variable {A B K : ℕ} (X : (⟨2, ![A, K]⟩ : Shape).Idx → EReal) (W : (⟨2, ![B, K]⟩ : Shape).Idx → EReal)

/-- Row a of X against row b of W, over the first n columns. -/
def rowDot (a b n : ℕ) : EReal := ∑ r : Fin n, at2 X a r.val * at2 W b r.val

/-- The products of one block of 1024 columns starting at column s · 1024. -/
def blockDot (a b s : ℕ) : EReal := ∑ k : Fin 1024, at2 X a (s * 1024 + k.val) * at2 W b (s * 1024 + k.val)

theorem rowDot_no_blocks (a b : ℕ) : rowDot X W a b (0 * 1024) = 0 :=
  Cert.LibBlockSums.sum_blocks_zero 1024 fun r => at2 X a r * at2 W b r

theorem rowDot_next_block (a b s : ℕ) :
    rowDot X W a b ((s + 1) * 1024) = rowDot X W a b (s * 1024) + blockDot X W a b s :=
  Cert.LibBlockSums.sum_blocks_succ 1024 s fun r => at2 X a r * at2 W b r

theorem rowDot_cast (a b : ℕ) {n n' : ℕ} (h : n = n') : rowDot X W a b n = rowDot X W a b n' :=
  Cert.LibBlockSums.sum_cast h fun r => at2 X a r * at2 W b r

/-- What the accumulator tile holds at row p, column q after grid point n. -/
def tileSpec (n p q : ℕ) : EReal :=
  rowDot X W (n / 16 * 1024 + p) (n / 4 % 4 * 1024 + q) ((n % 4 + 1) * 1024)

/-- This point's own block of products. -/
def tileBlock (n p q : ℕ) : EReal := blockDot X W (n / 16 * 1024 + p) (n / 4 % 4 * 1024 + q) (n % 4)

/-- A first block: zero plus the block's products. -/
theorem tileSpec_first (n p q : ℕ) (h : n % 4 = 0) : (0 : EReal) + tileBlock X W n p q = tileSpec X W n p q := by
  unfold tileSpec tileBlock
  rw [h, rowDot_next_block, rowDot_no_blocks]

/-- A later block: the point before, plus the block's products. -/
theorem tileSpec_step (n p q : ℕ) (h : ¬n % 4 = 0) :
    tileSpec X W (n - 1) p q + tileBlock X W n p q = tileSpec X W n p q := by
  unfold tileSpec tileBlock
  have e1 : (n - 1) / 16 = n / 16 := by omega
  have e2 : (n - 1) / 4 % 4 = n / 4 % 4 := by omega
  have e3 : (n - 1) % 4 + 1 = n % 4 := by omega
  rw [e1, e2, e3, rowDot_next_block]

/-- A last block: all 4096 columns. -/
theorem tileSpec_last (n p q : ℕ) (h : n % 4 = 3) :
    tileSpec X W n p q = rowDot X W (n / 16 * 1024 + p) (n / 4 % 4 * 1024 + q) 4096 := by
  unfold tileSpec
  rw [h]

end Cert.BlockedDot

end
-- ==== Proof.AccInvariant.lean ====
/-
  What the accumulator tile holds after every grid point, over the extended reals.

  The grid has 8 x 4 x 4 = 128 points, the contracted axis innermost. Point t works on row tile t / 16 of the
  flattened input X (8192 x 4096), on row tile (t / 4) % 4 of the weight W (4096 x 4096: its rows are the output
  features) and on column block t % 4 of both. The left tile it loads is X's rows (t / 16) · 1024 + p at columns
  (t % 4) · 1024 + k, the right tile W's rows ((t / 4) % 4) · 1024 + q at the same columns, the bias tile the bias
  row's entries ((t / 4) % 4) · 1024 + q.

  By induction on the point: after point t the accumulator tile holds, at (p, q), the dot product of X's row
  (t / 16) · 1024 + p with W's row ((t / 4) % 4) · 1024 + q over the first (t % 4 + 1) · 1024 columns. A first block
  starts from the zero fill; a later block adds its products to what the point before left.
-/
import proofs.«173981_j16716012716545_1_alg».proof.Proof.AccPieces
import proofs.«173981_j16716012716545_1_alg».proof.Proof.AccPayload
import proofs.«173981_j16716012716545_1_alg».proof.Proof.BlockedDot

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.BlockedDot

variable (m : (ℓ : Loc nD τ sig) → Buf (Elt Ideal) ℓ)

/-- The flattened input, the weight and the bias row, as the kernel region finds them. -/
abbrev xarr (c : Dev nD) : Vec Ideal S8192x4096 .f32 := V m c main_v12
abbrev warr (c : Dev nD) : Vec Ideal S4096x4096 .f32 := V m c main_v11
abbrev barr (c : Dev nD) : Vec Ideal S1x4096 .f32 := V m c main_v13

/-- The three tiles the body loads at point t. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t

/-- Which tile of each array a grid point works on: decided over the 128 points. -/
theorem tile_of_point : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left tile at (p, k) is X at row (t / 16) · 1024 + p, column (t % 4) · 1024 + k. -/
theorem xblk_apply (c : Dev nD) (t : Fin cfg0.N) (p k : Fin 1024) :
    xblk m c t (ix2 p k) = at2 (xarr m c) (t.val / 16 * 1024 + p.val) (t.val % 4 * 1024 + k.val) := by
  obtain ⟨e0, e1, -⟩ := tile_of_point t
  have hN : t.val < 128 := lt_of_lt_of_eq t.isLt (show cfg0.N = 128 from N_0)
  have hp := p.isLt
  have hk := k.isLt
  refine Eq.trans ?_ (eq_at2 (xarr m c) ⟨t.val / 16 * 1024 + p.val, by omega⟩ ⟨t.val % 4 * 1024 + k.val, by omega⟩ _ _ rfl rfl)
  show ((cfg0.win 0).blk t).view.read (Elt Ideal) (V m c main_v12) (ix2 p k) = V m c main_v12 _
  rw [View.read_apply]
  show V m c main_v12 _ = V m c main_v12 _
  congr 1
  funext a
  apply Fin.ext
  match a with
  | ⟨0, _⟩ => show win0_0.index t (0 : Fin 2) * 1024 + 1 * p.val = t.val / 16 * 1024 + p.val; omega
  | ⟨1, _⟩ => show win0_0.index t (1 : Fin 2) * 1024 + 1 * k.val = t.val % 4 * 1024 + k.val; omega

/-- The right tile at (q, k) is W at row ((t / 4) % 4) · 1024 + q, column (t % 4) · 1024 + k. -/
theorem wblk_apply (c : Dev nD) (t : Fin cfg0.N) (q k : Fin 1024) :
    wblk m c t (ix2 q k) = at2 (warr m c) (t.val / 4 % 4 * 1024 + q.val) (t.val % 4 * 1024 + k.val) := by
  obtain ⟨-, -, e0, e1, -⟩ := tile_of_point t
  have hq := q.isLt
  have hk := k.isLt
  refine Eq.trans ?_ (eq_at2 (warr m c) ⟨t.val / 4 % 4 * 1024 + q.val, by omega⟩ ⟨t.val % 4 * 1024 + k.val, by omega⟩ _ _ rfl rfl)
  show ((cfg0.win 1).blk t).view.read (Elt Ideal) (V m c main_v11) (ix2 q k) = V m c main_v11 _
  rw [View.read_apply]
  show V m c main_v11 _ = V m c main_v11 _
  congr 1
  funext a
  apply Fin.ext
  match a with
  | ⟨0, _⟩ => show win0_1.index t (0 : Fin 2) * 1024 + 1 * q.val = t.val / 4 % 4 * 1024 + q.val; omega
  | ⟨1, _⟩ => show win0_1.index t (1 : Fin 2) * 1024 + 1 * k.val = t.val % 4 * 1024 + k.val; omega

/-- The bias tile at (0, q) is the bias row at column ((t / 4) % 4) · 1024 + q. -/
theorem bblk_apply (c : Dev nD) (t : Fin cfg0.N) (q : Fin 1024) :
    bblk m c t (ix2 0 q) = at2 (barr m c) 0 (t.val / 4 % 4 * 1024 + q.val) := by
  obtain ⟨-, -, -, -, e0, e1, -⟩ := tile_of_point t
  have hq := q.isLt
  refine Eq.trans ?_ (eq_at2 (barr m c) ⟨0, Nat.one_pos⟩ ⟨t.val / 4 % 4 * 1024 + q.val, by omega⟩ _ _ rfl rfl)
  show ((cfg0.win 2).blk t).view.read (Elt Ideal) (V m c main_v13) (ix2 0 q) = V m c main_v13 _
  rw [View.read_apply]
  show V m c main_v13 _ = V m c main_v13 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = t.val / 4 % 4 * 1024 + q.val; omega

/-- The products of the two tiles loaded at point t, at (p, q): the point's own block of the dot product. -/
theorem tiles_product (c : Dev nD) (t : Fin cfg0.N) (p q : Fin 1024) :
    ∑ k : Fin 1024, xblk m c t (ix2 p k) * wblk m c t (ix2 q k) = tileBlock (xarr m c) (warr m c) t.val p.val q.val := by
  unfold tileBlock blockDot
  refine Finset.sum_congr rfl fun k _ => ?_
  rw [xblk_apply, wblk_apply]

/-- The accumulator tile after point n, as the frame run states it. -/
abbrev accAfter (c : Dev nD) (n : ℕ) (h : n < cfg0.N) : Vec Ideal S1024x1024 .f32 := (outsAt0 m c n h).2

/-- After a first block. -/
theorem acc_first (c : Dev nD) (t : Fin cfg0.N) (h0 : t.val % 4 = 0) (p q : Fin 1024) :
    accAfter m c t.val t.isLt (ix2 p q) = tileSpec (xarr m c) (warr m c) t.val p.val q.val := by
  have h1 : ¬t.val % 4 = 3 := by omega
  show (outsAt0 m c t.val t.isLt).2 (ix2 p q) = _
  rw [outsAt0_A m c t h0 h1]
  dsimp only
  rw [scratch_first]
  refine (update_apply (xblk m c t) (wblk m c t) (k0_pay1 (F := Ideal)) p q).trans ?_
  rw [zero_tile_apply, tiles_product]
  exact tileSpec_first _ _ _ _ _ h0

/-- After a later block, from the point before. -/
theorem acc_step (c : Dev nD) (t : Fin cfg0.N) (h0 : ¬t.val % 4 = 0) (p q : Fin 1024)
    (ih : accAfter m c (t.val - 1) (Nat.lt_of_le_of_lt (Nat.sub_le _ _) t.isLt) (ix2 p q) = tileSpec (xarr m c) (warr m c) (t.val - 1) p.val q.val) :
    accAfter m c t.val t.isLt (ix2 p q) = tileSpec (xarr m c) (warr m c) t.val p.val q.val := by
  show (outsAt0 m c t.val t.isLt).2 (ix2 p q) = _
  by_cases h1 : t.val % 4 = 3
  · rw [outsAt0_C m c t h0 h1]
    dsimp only
    rw [scratch_last]
    refine (update_apply (xblk m c t) (wblk m c t) (accAfter m c (t.val - 1) (Nat.lt_of_le_of_lt (Nat.sub_le _ _) t.isLt)) p q).trans ?_
    rw [ih, tiles_product]
    exact tileSpec_step _ _ _ _ _ h0
  · rw [outsAt0_B m c t h0 h1]
    dsimp only
    rw [scratch_middle]
    refine (update_apply (xblk m c t) (wblk m c t) (accAfter m c (t.val - 1) (Nat.lt_of_le_of_lt (Nat.sub_le _ _) t.isLt)) p q).trans ?_
    rw [ih, tiles_product]
    exact tileSpec_step _ _ _ _ _ h0

/-- THE INVARIANT: after every point the accumulator tile is the partial dot product. -/
theorem acc_eq (c : Dev nD) (n : ℕ) : ∀ (h : n < cfg0.N) (p q : Fin 1024),
    accAfter m c n h (ix2 p q) = tileSpec (xarr m c) (warr m c) n p.val q.val := by
  induction n using Nat.strong_induction_on with
  | _ n ih =>
    intro h p q
    by_cases h0 : n % 4 = 0
    · exact acc_first m c ⟨n, h⟩ h0 p q
    · exact acc_step m c ⟨n, h⟩ h0 p q (ih (n - 1) (by omega) _ p q)

/-- What a last block writes to the output tile, at (p, q): the whole dot product plus the bias entry. -/
theorem out_tile_apply (c : Dev nD) (t : Fin cfg0.N) (h1 : t.val % 4 = 3) (p q : Fin 1024) :
    (outsAt0 m c t.val t.isLt).1 (ix2 p q)
      = rowDot (xarr m c) (warr m c) (t.val / 16 * 1024 + p.val) (t.val / 4 % 4 * 1024 + q.val) 4096
        + at2 (barr m c) 0 (t.val / 4 % 4 * 1024 + q.val) := by
  have h0 : ¬t.val % 4 = 0 := by omega
  have hacc : (outsAt0 m c t.val t.isLt).2 (ix2 p q) = tileSpec (xarr m c) (warr m c) t.val p.val q.val :=
    acc_eq m c t.val t.isLt p q
  rw [outsAt0_C m c t h0 h1] at hacc ⊢
  dsimp only at hacc ⊢
  rw [scratch_last] at hacc
  rw [out_last]
  refine (finish_apply (bblk m c t) _ p q).trans ?_
  rw [hacc, bblk_apply, tileSpec_last _ _ _ _ _ h1]

end Cert.KernelIdeal.Acc

end
-- ==== Proof.KernelValue.lean ====
/-
  The idealized kernel's run, read: what its result holds.

  The region's output array is 8192 x 4096, cut into 8 x 4 tiles of 1024 x 1024. Tile (a, b) is written back once, by
  the grid point 16a + 4b + 3 (the last block of the contraction for that tile), and what that point writes at (p, q)
  is the dot product of row 1024a + p of the flattened input with row 1024b + q of the weight over all 4096 columns,
  plus the bias row's entry 1024b + q. The 32 tiles cover the array, so after the run it holds, at (i, j),
      outArr(i, j) = ∑ r < 4096, X(i, r) · W(j, r) + bias(j).
  The one host operation after the region reshapes that array to 4 x 2048 x 4096; the six arguments end as launched.
-/
import proofs.«173981_j16716012716545_1_alg».proof.Proof.AccInvariant
import proofs.«173981_j16716012716545_1_alg».proof.Proof.Gen.KernelIdeal.Points
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.BlockedDot

variable (m : (ℓ : Loc nD τ sig) → Buf (Elt Ideal) ℓ) (ρ : Dev nD → PrngReg)

/-- The region's output array after the run: every row of X against every row of W, plus the bias. -/
def outArr (c : Dev nD) : Vec Ideal S8192x4096 .f32 :=
  fun j => rowDot (xarr m c) (warr m c) (j 0).val (j 1).val 4096 + at2 (barr m c) 0 (j 1).val

/-- What a writing point writes back is its tile of `outArr`. -/
theorem flushed_eq (c : Dev nD) (t : Fin cfg0.N) (hf : (cfg0.win 3).flush t = true) :
    (dats m 0 c).flushed 3 t = ((cfg0.win 3).blk t).view.read (Elt Ideal) (outArr m c) := by
  have h1 : t.val % 4 = 3 := (flush0_3 t).mp hf
  obtain ⟨-, -, -, -, -, -, e0, e1⟩ := tile_of_point t
  show (cfg0.win 3).cut (grid0.coords t) ((dats m 0 c).after 3 t) = _
  rw [after0_3]
  refine funext fun (j : S1024x1024.Idx) => ?_
  obtain ⟨p, q, rfl⟩ : ∃ (p q : Fin 1024), j = ix2 p q := ⟨j 0, j 1, eq_ix2 j⟩
  show (outsAt0 m c t.val t.isLt).1 (ix2 p q) = outArr m c (((cfg0.win 3).blk t).view.emb (ix2 p q))
  rw [out_tile_apply m c t h1 p q]
  unfold outArr
  have c0 : ((((cfg0.win 3).blk t).view.emb (ix2 p q)) 0).val = t.val / 16 * 1024 + p.val := by
    show win0_3.index t (0 : Fin 2) * 1024 + 1 * p.val = _; omega
  have c1 : ((((cfg0.win 3).blk t).view.emb (ix2 p q)) 1).val = t.val / 4 % 4 * 1024 + q.val := by
    show win0_3.index t (1 : Fin 2) * 1024 + 1 * q.val = _; omega
  rw [c0, c1]

/-- An element of the array lies in point t's tile iff each coordinate lies in the tile's range. -/
theorem mem_tile (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v14).slice (win0_3.rect t)).set ↔ _
  rw [View.set_slice_whole, Rect.mem_set_unit]
  exact Iff.rfl

/-- Every element is in the tile of the point that finishes its tile: 16 · (row tile) + 4 · (column tile) + 3. -/
theorem tiles_cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  have hlt : (i 0).val / 1024 * 16 + (i 1).val / 1024 * 4 + 3 < cfg0.N := by omega
  obtain ⟨-, -, -, -, -, -, e0, e1⟩ := tile_of_point ⟨(i 0).val / 1024 * 16 + (i 1).val / 1024 * 4 + 3, hlt⟩
  refine ⟨⟨(i 0).val / 1024 * 16 + (i 1).val / 1024 * 4 + 3, hlt⟩, (flush0_3 _).mpr (by show ((i 0).val / 1024 * 16 + (i 1).val / 1024 * 4 + 3) % 4 = 3; omega), ?_⟩
  rw [mem_tile]
  intro a
  match a with
  | ⟨0, _⟩ =>
    show win0_3.index _ (0 : Fin 2) * 1024 ≤ (i 0).val ∧ (i 0).val < win0_3.index _ (0 : Fin 2) * 1024 + 1024
    rw [e0]
    show ((i 0).val / 1024 * 16 + (i 1).val / 1024 * 4 + 3) / 16 * 1024 ≤ (i 0).val ∧ (i 0).val < ((i 0).val / 1024 * 16 + (i 1).val / 1024 * 4 + 3) / 16 * 1024 + 1024
    omega
  | ⟨1, _⟩ =>
    show win0_3.index _ (1 : Fin 2) * 1024 ≤ (i 1).val ∧ (i 1).val < win0_3.index _ (1 : Fin 2) * 1024 + 1024
    rw [e1]
    show ((i 0).val / 1024 * 16 + (i 1).val / 1024 * 4 + 3) / 4 % 4 * 1024 ≤ (i 1).val ∧ (i 1).val < ((i 0).val / 1024 * 16 + (i 1).val / 1024 * 4 + 3) / 4 % 4 * 1024 + 1024
    omega

/-- The output array after the last point. -/
theorem final_out (c : Dev nD) : (dats m 0 c).arrAt 3 cfg0.N = outArr m c :=
  (dats m 0 c).arrAt_eq_of_cover 3 (outArr m c) (flushed_eq m c) tiles_cover

/-- The host operation after the region: the result is the output array reshaped to 4 x 2048 x 4096. -/
theorem tail_eq (c : Dev nD) :
    Pipeline.afterTail₀ cfgs (dats m) 0 (V0 m) [hostOps1] c main_v15
      = shapeCast S4x2048x4096 (outArr m c) shapeCasts_S8192x4096_S4x2048x4096 := by
  unfold Pipeline.afterTail₀
  show StableHlo.after hostOps1 _ (Proc.devRef .tc main_v15) = _
  after_results
  exact congrArg (fun z => shapeCast S4x2048x4096 z shapeCasts_S8192x4096_S4x2048x4096)
    ((Pipeline.withArrays_arr spec0 launch0.win.arr_inj c _ _ 3).trans (final_out m c))

/-- THE RUN, READ: the result at the reshaped output array, the arguments as launched. -/
theorem run : θ_run defs (onTc (τ := τ) (main (F := Ideal))) ⟨m, fun _ => 0, ρ⟩ fun r => ∀ c : Dev nD,
      r.2.mem ((c.tc : Thread nD τ).loc main_v15) = shapeCast S4x2048x4096 (outArr m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Acc

end
-- ==== Proof.HostSide.lean ====
/-
  What the kernel region finds in its three operand arrays, as functions of the program's arguments.

  Before the region the host code flattens the input from 4 x 2048 x 4096 to 8192 x 4096 (row 2048 b + s is the old
  (b, s)), views the bias as a 1 x 4096 row, and reconstructs the weight — by exactly the operations, with exactly the
  constants, that the reference program uses, so the kernel's weight array IS the reference's weight stage of the
  same arguments.
-/
import proofs.«173981_j16716012716545_1_alg».proof.Proof.AccInvariant
import proofs.«173981_j16716012716545_1_alg».proof.Proof.Gen.ReferenceIdeal.Read
import Idealize.ShloMosaic.Lib.StableHlo.Run

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The flattened input. -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v12) = _
  after_results <;> rfl

/-- The bias as a row. -/
theorem barr_eq (c : Dev nD) :
    barr m c = shapeCast S1x4096 (m ((c : Thread nD τ).loc main_arg2)) shapeCasts_S4096_S1x4096 := by
  show StableHlo.after hostOps0 (fun b => m (c, b)) (Proc.devRef .tc main_v13) = _
  after_results <;> rfl

/-- The reconstructed weight: the reference's stage of the same four arguments. -/
theorem warr_eq (c : Dev nD) :
    warr m c = Cert.ReferenceIdeal.Read.val_main_v11 (F := Ideal) (m ((c : Thread nD τ).loc main_arg1)) (m ((c : Thread nD τ).loc main_arg3))
      (m ((c : Thread nD τ).loc main_arg4)) (m ((c : Thread nD τ).loc main_arg5)) := by
  show StableHlo.after hostOps0 (fun b => m (c, b)) (Proc.devRef .tc main_v11) = _
  after_results <;> rfl

/-- Row 2048 b + s, column k of the flattened input is x(b, s, k). -/
theorem xarr_apply (c : Dev nD) (b : Fin 4) (s : Fin 2048) (k : Fin 4096) (r : Fin 8192) (hr : r.val = b.val * 2048 + s.val) :
    xarr m c (ix2 r k) = m ((c : Thread nD τ).loc main_arg0) (ix3 b s k) := by
  rw [xarr_eq]
  refine shapeCast_apply _ _ (ix2 r k) (ix3 b s k) ?_
  rw [Shape.rowMajor_val_two, Shape.rowMajor_val_three]
  show (b.val * 2048 + s.val) * 4096 + k.val = r.val * 4096 + k.val
  rw [hr]

/-- Entry o of the bias row is bias(o). -/
theorem barr_apply (c : Dev nD) (o : Fin 4096) :
    barr m c (ix2 0 o) = m ((c : Thread nD τ).loc main_arg2) (ix1 o) := by
  rw [barr_eq]
  refine shapeCast_apply _ _ (ix2 0 o) (ix1 o) ?_
  rw [Shape.rowMajor_val_two, Shape.rowMajor_val_one]
  show o.val = 0 * 4096 + o.val
  omega

end Cert.KernelIdeal.Acc

end
-- ==== Proof.Bridge.lean ====
/-
  The idealized kernel's result at one element, in the reference's terms.

  The result is the region's output array reshaped to 4 x 2048 x 4096, so its element (b, s, o) is the output array's
  element (2048 b + s, o): the dot product of row 2048 b + s of the flattened input — which is x(b, s, ·) — with row o
  of the reconstructed weight over all 4096 columns, plus bias(o):
      result(b, s, o) = ∑ k < 4096, x(b, s, k) · weight(o, k) + bias(o).
-/
import proofs.«173981_j16716012716545_1_alg».proof.Proof.KernelValue
import proofs.«173981_j16716012716545_1_alg».proof.Proof.HostSide

noncomputable section

open Idealize.ShloMosaic Idealize.ShloMosaic.TcCoe Idealize.SL.Sem Idealize.ShloMosaic.ValueIdx

namespace Cert.KernelIdeal.Acc

open Cert.KernelIdeal Cert.KernelIdeal.Gen Cert.BlockedDot

variable (m : (ℓ : Loc nD τ sig) → Buf (Elt Ideal) ℓ)

/-- The six arguments at their literal types: the input, the bias, and the reconstructed weight (the reference's stage
    of the original weight and the three adapter factors). -/
abbrev xin (c : Dev nD) : Vec Ideal S4x2048x4096 .f32 := m ((c : Thread nD τ).loc main_arg0)
abbrev bias (c : Dev nD) : Vec Ideal S4096 .f32 := m ((c : Thread nD τ).loc main_arg2)
abbrev weight (c : Dev nD) : Vec Ideal S4096x4096 .f32 :=
  Cert.ReferenceIdeal.Read.val_main_v11 (F := Ideal) (m ((c : Thread nD τ).loc main_arg1)) (m ((c : Thread nD τ).loc main_arg3))
    (m ((c : Thread nD τ).loc main_arg4)) (m ((c : Thread nD τ).loc main_arg5))

/-- The kernel's result at (b, s, o). -/
theorem result_apply (c : Dev nD) (b : Fin 4) (s : Fin 2048) (o : Fin 4096) :
    shapeCast S4x2048x4096 (outArr m c) shapeCasts_S8192x4096_S4x2048x4096 (ix3 b s o)
      = (∑ k : Fin 4096, xin m c (ix3 b s k) * weight m c (ix2 o k)) + bias m c (ix1 o) := by
  have hb := b.isLt
  have hs := s.isLt
  have hr : b.val * 2048 + s.val < 8192 := by omega
  rw [shapeCast_apply (outArr m c) shapeCasts_S8192x4096_S4x2048x4096 (ix3 b s o) (ix2 ⟨b.val * 2048 + s.val, hr⟩ o)
    (by
      show (S8192x4096.rowMajor (ix2 (⟨b.val * 2048 + s.val, hr⟩ : Fin 8192) o)).val = (S4x2048x4096.rowMajor (ix3 b s o)).val
      rw [Shape.rowMajor_val_two, Shape.rowMajor_val_three]; rfl)]
  show rowDot (xarr m c) (warr m c) (Fin.val (⟨b.val * 2048 + s.val, hr⟩ : Fin 8192)) o.val 4096
      + at2 (barr m c) (Fin.val (0 : Fin 1)) o.val = _
  unfold rowDot
  rw [at2_eq (barr m c) 0 o, barr_apply]
  congr 1
  refine Finset.sum_congr rfl fun k _ => ?_
  rw [at2_eq (xarr m c) ⟨b.val * 2048 + s.val, hr⟩ k, at2_eq (warr m c) o k, xarr_apply m c b s k _ rfl, warr_eq]

end Cert.KernelIdeal.Acc

end
-- ==== Proof.RefSide.lean ====
/-
  The reference's result read at one element, over the extended reals: for batch b, position s and output feature o,
      result(b, s, o) = ∑ k < 4096, x(b, s, k) · weight(o, k) + bias(o),
  where weight is the reconstructed weight matrix (the generated reading's stage for it, a function of the original
  weight and the three adapter factors). The contraction pairs the input's last axis with the weight's SECOND axis:
  the weight's rows are the output features.
-/
import proofs.«173981_j16716012716545_1_alg».proof.Proof.Gen.ReferenceIdeal.Run
import proofs.«173981_j16716012716545_1_alg».proof.Proof.Gen.ReferenceIdeal.Read
import Idealize.ShloMosaic.Lib.ValueIdx
import Idealize.ShloMosaic.PureOps.Ideal.Laws

noncomputable section

open Idealize.ShloMosaic Idealize.ShloMosaic.ValueIdx

namespace Cert.ReferenceIdeal.RefSide

open Cert.ReferenceIdeal Cert.ReferenceIdeal.Read

/-- The left operand of the big product at (b, s, o), contraction coordinate k, is x(b, s, k). -/
theorem left_index (b : Fin 4) (s : Fin 2048) (o k : Fin 4096) : lidx_main_v12 (ix3 b s o) k = ix3 b s k :=
  funext fun a => Fin.ext (by match a with | ⟨0, _⟩ => rfl | ⟨1, _⟩ => rfl | ⟨2, _⟩ => rfl)

/-- The right operand there is weight(o, k). -/
theorem right_index (b : Fin 4) (s : Fin 2048) (o k : Fin 4096) : ridx_main_v12 (ix3 b s o) k = ix2 o k :=
  funext fun a => Fin.ext (by match a with | ⟨0, _⟩ => rfl | ⟨1, _⟩ => rfl)

/-- The bias broadcast over batch and position reads bias(o). -/
theorem bias_index (b : Fin 4) (s : Fin 2048) (o : Fin 4096) : idx_main_v13 (idx_main_v14 (ix3 b s o)) = ix1 o :=
  funext fun a => Fin.ext (by match a with | ⟨0, _⟩ => rfl)

/-- The reference's result at (b, s, o). -/
theorem result_apply (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S64x64, .f32⟩ : BufTy).Contents (Elt Ideal))
    (x4 : (⟨S64x16, .f32⟩ : BufTy).Contents (Elt Ideal)) (x5 : (⟨S16x64, .f32⟩ : BufTy).Contents (Elt Ideal))
    (b : Fin 4) (s : Fin 2048) (o : Fin 4096) :
    val_main_v15 (F := Ideal) x0 x1 x2 x3 x4 x5 (ix3 b s o)
      = (∑ k : Fin 4096, x0 (ix3 b s k) * val_main_v11 (F := Ideal) x1 x3 x4 x5 (ix2 o k)) + x2 (ix1 o) := by
  rw [val_main_v15_apply, val_main_v12_apply, val_main_v14_apply, val_main_v13_apply]
  simp only [left_index, right_index, bias_index]
  rfl

end Cert.ReferenceIdeal.RefSide

end
-- ==== Proof.lean ====
/-
  A linear layer whose weight is the original weight plus a scaled Kronecker-product adapter: out = x · weightᵀ + bias,
  with x of shape 4 x 2048 x 4096 and weight 4096 x 4096 (rows = output features).

  Both programs reconstruct the weight on the host by the same operations and constants. The reference then takes ONE
  product over all 4096 input features and adds the bias. The kernel flattens x to 8192 rows and tiles the product
  1024 x 1024 x 1024 over an 8 x 4 x 4 grid: for each output tile it zeroes an accumulator, adds the partial product
  of each of the four 1024-column blocks in turn, and at the fourth adds the bias and writes the tile out. Over the
  extended reals the four partial sums, added in order to zero, are the sum over all 4096 columns (addition is
  commutative and associative there; no entry need be finite), so every element of the two results is the same
      ∑ k < 4096, x(b, s, k) · weight(o, k) + bias(o).

  The two kernel frames are the generated ones; the reference's frame is its generated run with the result dropped;
  the idealization rewrote nothing, so that conjunct is trivial.
-/
import proofs.«173981_j16716012716545_1_alg».proof.Defs
import proofs.«173981_j16716012716545_1_alg».proof.Proof.Gen.Kernel
import proofs.«173981_j16716012716545_1_alg».proof.Proof.Gen.Kernel.Skeleton
import proofs.«173981_j16716012716545_1_alg».proof.Proof.Gen.Kernel.Launch
import proofs.«173981_j16716012716545_1_alg».proof.Proof.Gen.Kernel.Points
import proofs.«173981_j16716012716545_1_alg».proof.Proof.Gen.Kernel.Frame
import proofs.«173981_j16716012716545_1_alg».proof.Proof.Gen.KernelIdeal
import proofs.«173981_j16716012716545_1_alg».proof.Proof.Gen.KernelIdeal.Skeleton
import proofs.«173981_j16716012716545_1_alg».proof.Proof.Gen.KernelIdeal.Launch
import proofs.«173981_j16716012716545_1_alg».proof.Proof.Gen.KernelIdeal.Points
import proofs.«173981_j16716012716545_1_alg».proof.Proof.Gen.KernelIdeal.Frame
import proofs.«173981_j16716012716545_1_alg».proof.Proof.Gen.ReferenceIdeal
import proofs.«173981_j16716012716545_1_alg».proof.Proof.Gen.Pre_finite_inputs
import Idealize.ShloMosaic.Adequacy
import Idealize.ShloMosaic.Init
import proofs.«173981_j16716012716545_1_alg».proof.Proof.Bridge
import proofs.«173981_j16716012716545_1_alg».proof.Proof.RefSide

noncomputable section

namespace Cert.Proof

open Idealize.ShloMosaic Idealize.SL.Sem Idealize.ShloMosaic.ValueIdx

/-- The two idealized programs, from memories that agree on the six arguments, end with the same result. -/
theorem algebraic : Cert.algebraic_KernelIdeal_ReferenceIdeal := by
  intro m ρ m' ρ' _ hagree
  refine ⟨fun c => shapeCast Cert.KernelIdeal.S4x2048x4096 (Cert.KernelIdeal.Acc.outArr m c)
    Cert.KernelIdeal.Facts₀.shapeCasts_S8192x4096_S4x2048x4096, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v15_eq, a0, a1, a2, a3, a4, a5]
  funext j
  obtain ⟨b, s, o, rfl⟩ : ∃ (b : Fin 4) (s : Fin 2048) (o : Fin 4096), j = ix3 b s o := ⟨j 0, j 1, j 2, eq_ix3 j⟩
  rw [Cert.ReferenceIdeal.RefSide.result_apply]
  exact (Cert.KernelIdeal.Acc.result_apply m c b s o).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
